-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S1024x8192 : Shape := ⟨2, ![1024, 8192]⟩
abbrev S1024 : Shape := ⟨1, ![1024]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S16x2048 32) (main_arg1 : FVec F S1024x8192 .f32) (main_arg2 : FVec F S1024 .f32) : IVec S_ 1 :=
  let main_v0 : FVec F S1024x8192 .f32 := Host.absf main_arg1
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S16x2048 : Shape := ⟨2, ![16, 2048]⟩
abbrev S1024x8192 : Shape := ⟨2, ![1024, 8192]⟩
abbrev S1024 : Shape := ⟨1, ![1024]⟩
abbrev S32768 : Shape := ⟨1, ![32768]⟩
abbrev S32768x1024 : Shape := ⟨2, ![32768, 1024]⟩
abbrev S512 : Shape := ⟨1, ![512]⟩
abbrev S1024x1024 : Shape := ⟨2, ![1024, 1024]⟩
abbrev S512x1024 : Shape := ⟨2, ![512, 1024]⟩
abbrev S512x1 : Shape := ⟨2, ![512, 1]⟩
abbrev S1x1024 : Shape := ⟨2, ![1, 1024]⟩
abbrev S16x2048x1024 : Shape := ⟨3, ![16, 2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16x2048, .i32⟩
  | .hbm, ⟨1, _⟩ => ⟨S1024x8192, .f32⟩
  | .hbm, ⟨2, _⟩ => ⟨S1024, .f32⟩
  | .hbm, ⟨3, _⟩ => ⟨S32768, .i32⟩
  | .hbm, ⟨4, _⟩ => ⟨S32768x1024, .f32⟩
  | .hbm, ⟨5, _⟩ => ⟨S16x2048x1024, .f32⟩
  | .local _ .vmem, ⟨0, _⟩ => ⟨S512, .i32⟩
  | .local _ .vmem, ⟨1, _⟩ => ⟨S512, .i32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_7 : BitVec 32 := 0#32
  let v25 : BitVec 1 := Scalar.cmpi .ne v24 c0_i32_7
  v25

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x2048_S32768 : S16x2048.ShapeCasts S32768
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512_S512_0 : ∀ a, (![0] : Fin 1 → Nat) a + S512.size a ≤ S512.size a
  h_S512 : 0 < S512.numel
  shapeCasts_S512_S512 : S512.ShapeCasts S512
  iota_S512x1024_d1_w32 : S512x1024.Iotas .tc 32 [1]
  shapeCasts_S512_S512x1 : S512.ShapeCasts S512x1
  broadcasts_S512x1_S512x1024 : S512x1.Broadcasts S512x1024
  natLt_1_32 : 1 < 32
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S32768x1024_S16x2048x1024 : S32768x1024.ShapeCasts S16x2048x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S32768.size a
  hwx0_0 : ∀ i : grid0.Coords, EltTy.bits .i32 = 32 ∨ (Rect.block (s := S32768) S512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x8192.size a
  hwx0_1 : ∀ i : grid0.Coords, EltTy.bits .f32 = 32 ∨ (Rect.block (s := S1024x8192) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x2048 : Shape := ⟨2, ![16, 2048]⟩
abbrev S1024x8192 : Shape := ⟨2, ![1024, 8192]⟩
abbrev S1024 : Shape := ⟨1, ![1024]⟩
abbrev S16x2048x1 : Shape := ⟨3, ![16, 2048, 1]⟩
abbrev S1x1x8192 : Shape := ⟨3, ![1, 1, 8192]⟩
abbrev S16x2048x8192 : Shape := ⟨3, ![16, 2048, 8192]⟩
abbrev S16x2048x1024 : Shape := ⟨3, ![16, 2048, 1024]⟩
abbrev S1x1x1024 : Shape := ⟨3, ![1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S1024x8192, .f32⟩
  | .hbm, ⟨2, _⟩ => ⟨S1024, .f32⟩
  | .hbm, ⟨3, _⟩ => ⟨S16x2048x1, .i32⟩
  | .hbm, ⟨4, _⟩ => ⟨S1x1x8192, .i32⟩
  | .hbm, ⟨5, _⟩ => ⟨S16x2048x8192, .i32⟩
  | .hbm, ⟨6, _⟩ => ⟨S16x2048x8192, .i32⟩
  | .hbm, ⟨7, _⟩ => ⟨S16x2048x8192, .i1⟩
  | .hbm, ⟨8, _⟩ => ⟨S16x2048x8192, .f32⟩
  | .hbm, ⟨9, _⟩ => ⟨S16x2048x1024, .f32⟩
  | .hbm, ⟨10, _⟩ => ⟨S1x1x1024, .f32⟩
  | .hbm, ⟨11, _⟩ => ⟨S16x2048x1024, .f32⟩
  | .hbm, ⟨12, _⟩ => ⟨S16x2048x1024, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]

class Facts₀ : Prop where
  bcast_S16x2048_S16x2048x1_0_1 : S16x2048.BroadcastsInDim S16x2048x1 (![0, 1] : Fin 2 → Fin S16x2048x1.rank)
  bcast_S16x2048x1_S16x2048x8192_0_1_2 : S16x2048x1.BroadcastsInDim S16x2048x8192 (![0, 1, 2] : Fin 3 → Fin S16x2048x8192.rank)
  bcast_S1x1x8192_S16x2048x8192_0_1_2 : S1x1x8192.BroadcastsInDim S16x2048x8192 (![0, 1, 2] : Fin 3 → Fin S16x2048x8192.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x8192_S1024x8192_S16x2048x1024_2_1_01_0_n_n_wf : DotDims.WF S16x2048x8192 S1024x8192 S16x2048x1024 [2] [1] [0, 1] [0] [] []

variable [Facts₀]

def dot_S16x2048x8192_S1024x8192_S16x2048x1024_2_1_01_0_n_n : DotDims S16x2048x8192 S1024x8192 S16x2048x1024 where
  lhsContracting := [2]
  rhsContracting := [1]
  lhsNonContracting := [0, 1]
  rhsNonContracting := [0]
  lhsBatch := []
  rhsBatch := []
  wf := dot_S16x2048x8192_S1024x8192_S16x2048x1024_2_1_01_0_n_n_wf

class Facts : Prop extends Facts₀ where

variable [Facts]
-- ==== Proof.Pieces.lean ====
import proofs.«124390_j37117107372549_1_alg».proof.Proof.Gen.KernelIdeal.Frame
import Idealize.ShloMosaic.Lib.Pipeline.Value

/-!
# What one grid point leaves in the accumulator and in the output block

The body keeps a `[512, 1024]` accumulator across the eight column tiles of one row block. Every store is of the whole
block, so what a point leaves is the payload of its last store, as a function of the point's input blocks and of what
the point before left:

* at a row block's first tile the accumulator is zeroed and then the tile's product is added to the zeros just stored;
* at the other tiles the product is added to what the previous tile left;
* at the last tile the output block is, besides, the accumulator just stored plus the bias row broadcast over the rows.

These hold at any float instance.
-/

set_option maxRecDepth 16384

noncomputable section

namespace Cert.Embed.Pieces

open Idealize.ShloMosaic Idealize.ShloMosaic.TcCoe Idealize.ShloMosaic.Tactic Idealize.SL.Sem
open Cert.KernelIdeal Cert.KernelIdeal.Gen

variable {F : FTy → Type} [FloatOps F]

theorem hz1 : (![0] : Fin 1 → ℕ) = fun _ => 0 := by funext a; fin_cases a; rfl
theorem hz2 : (![0, 0] : Fin 2 → ℕ) = fun _ => 0 := by funext a; fin_cases a <;> rfl

/-- First tile of a row block: the tile's product added to the zeros the point has just stored. -/
theorem acc_first (c : Dev nD) (i : grid0.Coords) (arg2 : Memref sig .tc .vmem S512 .i32) (harg2 : arg2.IsWhole) (arg3 : Memref sig .tc .vmem S1024x1024 .f32) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : ¬cond0_1 i)
    (x0 : Vec F S512 .i32) (x1 : Vec F S1024x1024 .f32) (x2 : Vec F S1024 .f32) :
    sout0_A_0 c i arg2 harg2 arg3 harg3 arg4 harg4 arg5 harg5 arg6 harg6 hc0 hc1 x0 x1 x2 = k0_pay2 i x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x1024) hz2]
  simp only [View.readAt_eq_ld, harg2.read_unread, harg3.read_unread, View.ld_unit_zero (S := S512) hz1,
    View.ld_unit_zero (S := S1024x1024) hz2, View.readCov_unit_zero (S := S512x1024) _ hz2]

/-- A middle tile: the tile's product added to what the tile before left. -/
theorem acc_middle (c : Dev nD) (i : grid0.Coords) (arg2 : Memref sig .tc .vmem S512 .i32) (harg2 : arg2.IsWhole) (arg3 : Memref sig .tc .vmem S1024x1024 .f32) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : ¬cond0_1 i)
    (x0 : Vec F S512 .i32) (x1 : Vec F S1024x1024 .f32) (x2 : Vec F S1024 .f32) (xs0 : Vec F S512x1024 .f32) :
    sout0_B_0 c i arg2 harg2 arg3 harg3 arg4 harg4 arg5 harg5 arg6 harg6 hc0 hc1 x0 x1 x2 xs0 = k0_pay2 i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S512x1024) hz2]
  simp only [View.readAt_eq_ld, harg2.read_unread, harg3.read_unread, harg6.read_unread, View.ld_unit_zero (S := S512) hz1,
    View.ld_unit_zero (S := S1024x1024) hz2, View.ld_unit_zero (S := S512x1024) hz2]

/-- The last tile leaves the accumulator as a middle tile does, -/
theorem acc_last (c : Dev nD) (i : grid0.Coords) (arg2 : Memref sig .tc .vmem S512 .i32) (harg2 : arg2.IsWhole) (arg3 : Memref sig .tc .vmem S1024x1024 .f32) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512 .i32) (x1 : Vec F S1024x1024 .f32) (x2 : Vec F S1024 .f32) (xs0 : Vec F S512x1024 .f32) :
    sout0_C_0 c i arg2 harg2 arg3 harg3 arg4 harg4 arg5 harg5 arg6 harg6 hc0 hc1 x0 x1 x2 xs0 = k0_pay2 i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S512x1024) hz2]
  simp only [View.readAt_eq_ld, harg2.read_unread, harg3.read_unread, harg6.read_unread, View.ld_unit_zero (S := S512) hz1,
    View.ld_unit_zero (S := S1024x1024) hz2, View.ld_unit_zero (S := S512x1024) hz2]

/-- and the output block at that accumulator plus the bias row. -/
theorem out_last (c : Dev nD) (i : grid0.Coords) (arg2 : Memref sig .tc .vmem S512 .i32) (harg2 : arg2.IsWhole) (arg3 : Memref sig .tc .vmem S1024x1024 .f32) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512 .i32) (x1 : Vec F S1024x1024 .f32) (x2 : Vec F S1024 .f32) (xs0 : Vec F S512x1024 .f32) :
    out0_C_3 c i arg2 harg2 arg3 harg3 arg4 harg4 arg5 harg5 arg6 harg6 hc0 hc1 x0 x1 x2 xs0 = k0_pay3 (k0_pay2 i x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S512x1024) hz2]
  simp only [View.readAt_eq_ld, harg2.read_unread, harg3.read_unread, harg4.read_unread, harg6.read_unread,
    View.ld_unit_zero (S := S512) hz1, View.ld_unit_zero (S := S1024) hz1, View.ld_unit_zero (S := S1024x1024) hz2,
    View.ld_unit_zero (S := S512x1024) hz2, View.readCov_unit_zero (S := S512x1024) _ hz2]

end Cert.Embed.Pieces

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Spec.lean ====
import Idealize.ShloMosaic.PureOps.Ideal
import Idealize.ShloMosaic.PureOps.Ideal.Laws
import Idealize.ShloMosaic.Lib.ValueIdx
import proofs.«124390_j37117107372549_1_alg».proof.Proof.LibSumSplit

/-!
# The embedding lookup as a product with a one-hot row

For a token word `x`, a weight table `W : [1024, 8192]` and a bias `b : [1024]`, entry `e` of the result is
`(∑ v < 8192, hot x v · W[e, v]) + b[e]`, where `hot x v` is `1` when `x` is the 32-bit word of `v` and `0` otherwise.
A word outside `[0, 8192)` matches no column, so its row is the bias alone; nothing here asks the word to be in range.

The sum over the 8192 columns is taken in 8 consecutive tiles of 1024 columns: `tile j` is the part of the sum over
columns `1024·j … 1024·j + 1023`, and `acc k` the sum of tiles `0 … k`. Addition of extended reals is commutative and
associative, so `acc 7` is the whole sum (`acc_last`); no entry has to be finite for that.
-/

noncomputable section

open Idealize.ShloMosaic Idealize.ShloMosaic.ValueIdx
open scoped BigOperators

namespace Cert.Embed

/-- The one-hot weight of two 32-bit words: `1` where they are the same word, `0` elsewhere. -/
def hot (a b : BitVec 32) : EReal := if a = b then 1 else 0

theorem hot_comm (a b : BitVec 32) : hot a b = hot b a := by
  unfold hot
  by_cases h : a = b
  · rw [if_pos h, if_pos h.symm]
  · rw [if_neg h, if_neg (fun h' => h h'.symm)]

/-- An equality test of two words, converted to a float as an unsigned one-bit integer, is their one-hot weight. -/
theorem uitofp_cmpi_eq (a b : BitVec 32) :
    FloatOps.uitofp (F := Ideal) .f32 (IntOp.cmpi .eq a b) = hot a b := by
  show (((IntOp.cmpi .eq a b).toNat : ℝ) : EReal) = hot a b
  unfold hot IntOp.cmpi
  by_cases h : a = b
  · rw [if_pos h, show (a == b) = true from beq_iff_eq.mpr h]
    have e : (BitVec.ofBool true).toNat = 1 := by decide
    rw [e]; simp
  · rw [if_neg h, show (a == b) = false from beq_eq_false_iff_ne.mpr h]
    have e : (BitVec.ofBool false).toNat = 0 := by decide
    rw [e]; simp

/-- The same test widened to 32 bits with zeros and converted as a signed integer: still `0` or `1`. -/
theorem sitofp_extui_cmpi_eq (a b : BitVec 32) :
    FloatOps.sitofp (F := Ideal) .f32 ((IntOp.cmpi .eq a b).setWidth 32) = hot a b := by
  show ((((IntOp.cmpi .eq a b).setWidth 32).toInt : ℝ) : EReal) = hot a b
  unfold hot IntOp.cmpi
  by_cases h : a = b
  · rw [if_pos h, show (a == b) = true from beq_iff_eq.mpr h]
    have e : ((BitVec.ofBool true).setWidth 32).toInt = 1 := by decide
    rw [e]; simp
  · rw [if_neg h, show (a == b) = false from beq_eq_false_iff_ne.mpr h]
    have e : ((BitVec.ofBool false).setWidth 32).toInt = 0 := by decide
    rw [e]; simp

/-- The column word a tile computes: `k · 1024 + q` in 32-bit arithmetic is the word of `1024·k + q`. -/
theorem col_word (k q : ℕ) : BitVec.ofNat 32 k * 1024#32 + BitVec.ofNat 32 q = BitVec.ofNat 32 (1024 * k + q) := by
  apply BitVec.eq_of_toNat_eq
  simp only [BitVec.toNat_add, BitVec.toNat_mul, BitVec.toNat_ofNat, Nat.reducePow]
  omega

abbrev SX : Shape := ⟨2, ![16, 2048]⟩
abbrev SW : Shape := ⟨2, ![1024, 8192]⟩
abbrev SB : Shape := ⟨1, ![1024]⟩
abbrev SO : Shape := ⟨3, ![16, 2048, 1024]⟩

variable (x : BitVec 32) (W : SW.Idx → EReal) (e : Fin 1024)

/-- Row `e` of the table at column `n` (zero past the table's width, which no tile reaches). -/
def wcol (n : ℕ) : EReal := if h : n < 8192 then W (ix2 e ⟨n, h⟩) else 0

/-- The part of the lookup sum over the 1024 columns of tile `j`. -/
def tile (j : ℕ) : EReal := ∑ q : Fin 1024, hot x (BitVec.ofNat 32 (1024 * j + q.val)) * wcol W e (1024 * j + q.val)

/-- Tiles `0 … k` summed. -/
def acc (k : ℕ) : EReal := ∑ j ∈ Finset.range (k + 1), tile x W e j

theorem acc_zero : acc x W e 0 = 0 + tile x W e 0 := by
  unfold acc; rw [Finset.sum_range_one, zero_add]

theorem acc_succ (k : ℕ) : acc x W e (k + 1) = acc x W e k + tile x W e (k + 1) := by
  unfold acc; exact Finset.sum_range_succ _ _

/-- The lookup sum over all 8192 columns. -/
def lookup : EReal := ∑ v : Fin 8192, hot x (BitVec.ofNat 32 v.val) * W (ix2 e v)

/-- Eight tiles of 1024 columns are all 8192 columns. -/
theorem acc_last : acc x W e 7 = lookup x W e := by
  unfold acc lookup
  rw [Finset.sum_range, Cert.SumSplit.sum_split 8 1024 8192 rfl]
  refine Finset.sum_congr rfl fun j _ => Finset.sum_congr rfl fun q _ => ?_
  unfold wcol
  rw [dif_pos (Cert.SumSplit.lt_of_run rfl j q)]

/-- THE RESULT: entry `(b, s, e)` is the lookup sum of token `X[b, s]` against row `e`, plus the bias at `e`. -/
def G (X : SX.Idx → BitVec 32) (W : SW.Idx → EReal) (bias : SB.Idx → EReal) : SO.Idx → EReal :=
  fun i => lookup (X (ix2 (⟨(i 0).val, (i 0).isLt⟩ : Fin 16) (⟨(i 1).val, (i 1).isLt⟩ : Fin 2048))) W (⟨(i 2).val, (i 2).isLt⟩ : Fin 1024)
    + bias (ix1 (⟨(i 2).val, (i 2).isLt⟩ : Fin 1024))

end Cert.Embed

end
-- ==== Proof.Payload.lean ====
import proofs.«124390_j37117107372549_1_alg».proof.Proof.Gen.KernelIdeal.Skeleton
import proofs.«124390_j37117107372549_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The body's three stored values, entry by entry, over the extended reals

* the reset value is `0` everywhere;
* the accumulator update at `(p, e)` is the old entry plus `∑ q < 1024, hot (1024·k + q) x[p] · w[e, q]`, where `k` is the
  point's column-tile coordinate, `x` the block of 512 token words and `w` the `[1024, 1024]` tile of the table: the
  left operand of the product is the one-hot row of `x[p]` restricted to the tile's columns (the compare of the column
  word `k·1024 + q` with `x[p]`, widened and converted: `0` or `1`), the right operand the tile itself, contracted along
  the tile's columns; the two roundings to the narrow float format do nothing to an extended real;
* the output value at `(p, e)` is the accumulator entry plus `bias[e]`.
-/

noncomputable section

namespace Cert.Embed.Payload

open Idealize.ShloMosaic Idealize.ShloMosaic.ValueIdx Idealize.SL.Sem
open Cert.KernelIdeal Cert.KernelIdeal.Gen Cert.Embed
open scoped BigOperators

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset value. -/
theorem zeros_apply (j : S512x1024.Idx) : (k0_pay1 (F := Ideal)) j = 0 := by
  unfold k0_pay1
  show shapeCast S512x1024 (broadcast S512x1024 (Scalar.ofBits (F := Ideal) .f32 0x00000000#32)) shapeCasts_S512x1024_S512x1024 j = 0
  rw [shapeCast_self]
  exact Ideal.ofBits_zero_f32

/-- The product's left operand at `(p, q)`: the one-hot weight of column word `kw + q` against token word `x[p]`. -/
theorem onehot_apply (kw : BitVec 32) (x0 : IVec S512 32) (p : Fin 512) (q : Fin 1024) :
    (truncf .bf16 (sitofp (F := Ideal) .f32 (extui 32 (cmpi .eq (addi (broadcast S512x1024 kw) (iota .tc S512x1024 32 [1] iota_S512x1024_d1_w32))
      (broadcastTo S512x1024 (shapeCast S512x1 (shapeCast S512 x0 shapeCasts_S512_S512) shapeCasts_S512_S512x1) broadcasts_S512x1_S512x1024)) natLt_1_32)) bitsLt_bf16_f32 : FVec Ideal S512x1024 .bf16) (ix2 p q)
    = hot (kw + BitVec.ofNat 32 q.val) (x0 (ix1 p)) := by
  show FloatOps.sitofp (F := Ideal) .f32 ((IntOp.cmpi .eq (IntOp.addi kw (BitVec.ofNat 32 (0 * 1024 + q.val)))
    (broadcastTo S512x1024 (shapeCast S512x1 (shapeCast S512 x0 shapeCasts_S512_S512) shapeCasts_S512_S512x1) broadcasts_S512x1_S512x1024 (ix2 p q))).setWidth 32) = _
  rw [sitofp_extui_cmpi_eq, broadcastTo_a1_ab_apply, shapeCast_a_a1_apply, shapeCast_self, Nat.zero_mul, Nat.zero_add]
  rfl

theorem lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The accumulator update at `(p, e)`: the old entry plus the tile's part of the lookup sum. -/
theorem tile_apply (i : grid0.Coords) (x0 : Vec Ideal S512 .i32) (x1 : Vec Ideal S1024x1024 .f32) (xs : Vec Ideal S512x1024 .f32)
    (p : Fin 512) (e : Fin 1024) :
    k0_pay2 (F := Ideal) i x0 x1 xs (ix2 p e)
      = xs (ix2 p e) + ∑ q : Fin 1024, hot (BitVec.ofNat 32 (1024 * (i 1).val + q.val)) (x0 (ix1 p)) * x1 (ix2 e q) := by
  unfold k0_pay2
  dsimp only
  rw [shapeCast_self]
  refine congrArg (xs (ix2 p e) + ·) ?_
  simp only [matmul]
  rw [Ideal.matmul_constant_zero_apply, ← Equiv.sum_comp (contrEquiv1 dot_S512x1024_S1024x1024_S512x1024_1_1_0_0_n_n 1024 rfl rfl).symm]
  refine Finset.sum_congr rfl fun q _ => ?_
  have hq := contrEquiv1_symm_val dot_S512x1024_S1024x1024_S512x1024_1_1_0_0_n_n 1024 rfl rfl q
  have el : dot_S512x1024_S1024x1024_S512x1024_1_1_0_0_n_n.lhsIdx (ix2 p e) ((contrEquiv1 dot_S512x1024_S1024x1024_S512x1024_1_1_0_0_n_n 1024 rfl rfl).symm q) = ix2 p q := funext fun a => Fin.ext (by
    match a with
    | ⟨0, _⟩ => exact lhs_0 _ _
    | ⟨1, _⟩ => exact (lhs_1 _ _).trans hq)
  have er : dot_S512x1024_S1024x1024_S512x1024_1_1_0_0_n_n.rhsIdx (ix2 p e) ((contrEquiv1 dot_S512x1024_S1024x1024_S512x1024_1_1_0_0_n_n 1024 rfl rfl).symm q) = ix2 e q := funext fun a => Fin.ext (by
    match a with
    | ⟨0, _⟩ => exact rhs_0 _ _
    | ⟨1, _⟩ => exact (rhs_1 _ _).trans hq)
  rw [el, er, onehot_apply]
  show hot (BitVec.ofNat 32 (i 1).val * 1024#32 + BitVec.ofNat 32 q.val) (x0 (ix1 p)) * x1 (ix2 e q) = _
  rw [col_word]

/-- The output value at `(p, e)`: the accumulator entry plus the bias at `e`. -/
theorem out_apply (a : Vec Ideal S512x1024 .f32) (b : Vec Ideal S1024 .f32) (p : Fin 512) (e : Fin 1024) :
    k0_pay3 (F := Ideal) a b (ix2 p e) = a (ix2 p e) + b (ix1 e) := by
  unfold k0_pay3
  show a (ix2 p e) + broadcastTo S512x1024 (shapeCast S1x1024 b shapeCasts_S1024_S1x1024) broadcasts_S1x1024_S512x1024 (ix2 p e) = _
  rw [broadcastTo_1b_ab_apply, shapeCast_a_1a_apply]

end Cert.Embed.Payload

end
-- ==== Proof.Blocks.lean ====
import proofs.«124390_j37117107372549_1_alg».proof.Proof.Gen.KernelIdeal.Frame
import proofs.«124390_j37117107372549_1_alg».proof.Proof.Spec
import Idealize.ShloMosaic.Lib.Pipeline.Value
import Idealize.ShloMosaic.Lib.ValueIdx

/-!
# The blocks a grid point sees, as entries of the whole arrays

The grid is `64 × 8`, row blocks outermost: point `t` works on row block `t / 8` (512 tokens) and column tile `t % 8`
(1024 columns of the table). So at point `t`

* the token block's entry `p` is token `512·(t/8) + p` of the flattened token array,
* the table block's entry `(e, q)` is `W[e, 1024·(t%8) + q]`,
* the bias block is the whole bias,
* and the output block is rows `512·(t/8) …` of the `[32768, 1024]` result.
-/

noncomputable section

namespace Cert.Embed.Blocks

open Idealize.ShloMosaic Idealize.ShloMosaic.TcCoe Idealize.ShloMosaic.ValueIdx Idealize.SL.Sem
open Cert.KernelIdeal Cert.KernelIdeal.Gen Cert.Embed

variable (m : (ℓ : Loc nD τ sig) → Buf (Elt Ideal) ℓ)

/-- The index maps and the tile coordinate at every grid point, decided over the grid. -/
theorem idx_facts : ∀ t : Fin cfg0.N,
    win0_0.index t (0 : Fin 1) = t.val / 8 ∧ win0_1.index t (0 : Fin 2) = 0 ∧ win0_1.index t (1 : Fin 2) = t.val % 8
    ∧ win0_2.index t (0 : Fin 1) = 0 ∧ win0_3.index t (0 : Fin 2) = t.val / 8 ∧ win0_3.index t (1 : Fin 2) = 0
    ∧ (grid0.coords t 1).val = t.val % 8 :=
  (by decide +kernel : ∀ t : Fin grid0.N,
    win0_0.index t (0 : Fin 1) = t.val / 8 ∧ win0_1.index t (0 : Fin 2) = 0 ∧ win0_1.index t (1 : Fin 2) = t.val % 8
    ∧ win0_2.index t (0 : Fin 1) = 0 ∧ win0_3.index t (0 : Fin 2) = t.val / 8 ∧ win0_3.index t (1 : Fin 2) = 0
    ∧ (grid0.coords t 1).val = t.val % 8)

theorem N_eq : cfg0.N = 512 := N_0

/-- The three input blocks at a point and the three arrays they are cut from, at their literal types. -/
abbrev xblk (c : Dev nD) (t : Fin cfg0.N) : Vec Ideal S512 .i32 := iblk m c 0 t
abbrev wblk (c : Dev nD) (t : Fin cfg0.N) : Vec Ideal S1024x1024 .f32 := iblk m c 1 t
abbrev bblk (c : Dev nD) (t : Fin cfg0.N) : Vec Ideal S1024 .f32 := iblk m c 2 t
abbrev xarr (c : Dev nD) : Vec Ideal S32768 .i32 := V m c main_v0
abbrev warr (c : Dev nD) : Vec Ideal S1024x8192 .f32 := V m c main_arg1
abbrev barr (c : Dev nD) : Vec Ideal S1024 .f32 := V m c main_arg2

/-- Token `n` of the flattened token array (the zero word past the array's end, which nothing reaches). -/
def xtok (c : Dev nD) (n : ℕ) : BitVec 32 :=
  if h : n < 32768 then xarr m c (ix1 ⟨n, h⟩) else 0#32

/-- Token `p` of row block `r`. -/
def tok (c : Dev nD) (r : ℕ) (p : Fin 512) : BitVec 32 := xtok m c (512 * r + p.val)

theorem xblk_apply (c : Dev nD) (t : Fin cfg0.N) (p : Fin 512) : xblk m c t (ix1 p) = tok m c (t.val / 8) p := by
  have ht : t.val < 512 := lt_of_lt_of_eq t.isLt N_eq
  have hb : 512 * (t.val / 8) + p.val < 32768 := by have := p.isLt; omega
  unfold tok xtok
  rw [dif_pos hb]
  show (iblk m c 0 t) (ix1 p) = V m c main_v0 _
  unfold iblk
  rw [View.read_apply]
  show V m c main_v0 _ = V m c main_v0 _
  congr 1
  funext a
  apply Fin.ext
  match a with
  | ⟨0, _⟩ => show win0_0.index t 0 * 512 + 1 * p.val = 512 * (t.val / 8) + p.val; rw [(idx_facts t).1]; omega

theorem wblk_apply (c : Dev nD) (t : Fin cfg0.N) (e : Fin 1024) (q : Fin 1024) :
    wblk m c t (ix2 e q) = wcol (warr m c) e (1024 * (t.val % 8) + q.val) := by
  have hb : 1024 * (t.val % 8) + q.val < 8192 := by have := q.isLt; omega
  unfold wcol
  rw [dif_pos hb]
  show (iblk m c 1 t) (ix2 e q) = V m c main_arg1 _
  unfold iblk
  rw [View.read_apply]
  show V m c main_arg1 _ = V m c main_arg1 _
  congr 1
  funext a
  apply Fin.ext
  match a with
  | ⟨0, _⟩ => show win0_1.index t 0 * 1024 + 1 * e.val = e.val; rw [(idx_facts t).2.1]; omega
  | ⟨1, _⟩ => show win0_1.index t 1 * 1024 + 1 * q.val = 1024 * (t.val % 8) + q.val; rw [(idx_facts t).2.2.1]; omega

theorem bblk_apply (c : Dev nD) (t : Fin cfg0.N) (e : Fin 1024) : bblk m c t (ix1 e) = barr m c (ix1 e) := by
  show (iblk m c 2 t) (ix1 e) = V m c main_arg2 _
  unfold iblk
  rw [View.read_apply]
  show V m c main_arg2 _ = V m c main_arg2 _
  congr 1
  funext a
  apply Fin.ext
  match a with
  | ⟨0, _⟩ => show win0_2.index t 0 * 1024 + 1 * e.val = e.val; rw [(idx_facts t).2.2.2.1]; omega

end Cert.Embed.Blocks

end
-- ==== Proof.Acc.lean ====
import proofs.«124390_j37117107372549_1_alg».proof.Proof.Pieces
import proofs.«124390_j37117107372549_1_alg».proof.Proof.Payload
import proofs.«124390_j37117107372549_1_alg».proof.Proof.Blocks

/-!
# The accumulator after every grid point, and the output block at a row block's last tile

After point `t` the accumulator's entry `(p, e)` is `acc (t % 8)`: the lookup sum of token `p` of row block `t / 8`
against row `e` of the table, over the columns of tiles `0 … t % 8`. By induction on the point: a row block's first
tile starts from the zeros it stores, every other tile adds its part to what the tile before left, and the point
before a tile that is not the first belongs to the same row block. At the last tile (`t % 8 = 7`) all 8192 columns
are in, and the output block is that lookup sum plus the bias.
-/

noncomputable section

namespace Cert.Embed.Acc

open Idealize.ShloMosaic Idealize.ShloMosaic.TcCoe Idealize.ShloMosaic.ValueIdx Idealize.SL.Sem
open Cert.KernelIdeal Cert.KernelIdeal.Gen Cert.Embed Cert.Embed.Blocks Cert.Embed.Payload

variable (m : (ℓ : Loc nD τ sig) → Buf (Elt Ideal) ℓ)

/-- One update at point `t`: the old entry plus tile `t % 8`'s part of the lookup sum of row block `t / 8`'s token. -/
theorem step (c : Dev nD) (t : Fin cfg0.N) (xs : Vec Ideal S512x1024 .f32) (p : Fin 512) (e : Fin 1024) :
    k0_pay2 (F := Ideal) (grid0.coords t) (xblk m c t) (wblk m c t) xs (ix2 p e)
      = xs (ix2 p e) + tile (tok m c (t.val / 8) p) (warr m c) e (t.val % 8) := by
  rw [tile_apply]
  refine congrArg (xs (ix2 p e) + ·) ?_
  unfold tile
  refine Finset.sum_congr rfl fun q _ => ?_
  rw [hot_comm, xblk_apply, wblk_apply, (idx_facts t).2.2.2.2.2.2]

/-- First tile of a row block: the accumulator restarts from zero. -/
theorem snd_first (c : Dev nD) (t : Fin cfg0.N) (h0 : t.val % 8 = 0) (h1 : ¬t.val % 8 = 7) (p : Fin 512) (e : Fin 1024) :
    (outsAt0 m c t.val t.isLt).2 (ix2 p e) = 0 + tile (tok m c (t.val / 8) p) (warr m c) e (t.val % 8) := by
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (xblk m c t) (wblk m c t) (bblk m c t)) (ix2 p e)).trans ?_
  rw [step, zeros_apply]

/-- A middle tile adds its part to what the point before left. -/
theorem snd_middle (c : Dev nD) (t : Fin cfg0.N) (h0 : ¬t.val % 8 = 0) (h1 : ¬t.val % 8 = 7) (p : Fin 512) (e : Fin 1024) :
    (outsAt0 m c t.val t.isLt).2 (ix2 p e)
      = (outsAt0 m c (t.val - 1) (Nat.lt_of_le_of_lt (Nat.sub_le _ _) t.isLt)).2 (ix2 p e) + tile (tok m c (t.val / 8) p) (warr m c) e (t.val % 8) := by
  rw [outsAt0_B m c t h0 h1]
  dsimp only
  refine (congrFun (Pieces.acc_middle (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (xblk m c t) (wblk m c t) (bblk m c t)
    (outsAt0 m c (t.val - 1) (Nat.lt_of_le_of_lt (Nat.sub_le _ _) t.isLt)).2) (ix2 p e)).trans ?_
  rw [step]

/-- So does the last tile, -/
theorem snd_last (c : Dev nD) (t : Fin cfg0.N) (h0 : ¬t.val % 8 = 0) (h1 : t.val % 8 = 7) (p : Fin 512) (e : Fin 1024) :
    (outsAt0 m c t.val t.isLt).2 (ix2 p e)
      = (outsAt0 m c (t.val - 1) (Nat.lt_of_le_of_lt (Nat.sub_le _ _) t.isLt)).2 (ix2 p e) + tile (tok m c (t.val / 8) p) (warr m c) e (t.val % 8) := by
  rw [outsAt0_C m c t h0 h1]
  dsimp only
  refine (congrFun (Pieces.acc_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (xblk m c t) (wblk m c t) (bblk m c t)
    (outsAt0 m c (t.val - 1) (Nat.lt_of_le_of_lt (Nat.sub_le _ _) t.isLt)).2) (ix2 p e)).trans ?_
  rw [step]

/-- and its output block is the accumulator it leaves plus the bias. -/
theorem fst_last (c : Dev nD) (t : Fin cfg0.N) (h0 : ¬t.val % 8 = 0) (h1 : t.val % 8 = 7) (p : Fin 512) (e : Fin 1024) :
    (outsAt0 m c t.val t.isLt).1 (ix2 p e) = (outsAt0 m c t.val t.isLt).2 (ix2 p e) + barr m c (ix1 e) := by
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (xblk m c t) (wblk m c t) (bblk m c t)
    (outsAt0 m c (t.val - 1) (Nat.lt_of_le_of_lt (Nat.sub_le _ _) t.isLt)).2) (ix2 p e)).trans ?_
  rw [out_apply, bblk_apply]
  refine congrArg (· + barr m c (ix1 e)) ?_
  exact (congrFun (Pieces.acc_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (xblk m c t) (wblk m c t) (bblk m c t)
    (outsAt0 m c (t.val - 1) (Nat.lt_of_le_of_lt (Nat.sub_le _ _) t.isLt)).2) (ix2 p e)).symm

/-- THE ACCUMULATOR after point `n`: tiles `0 … n % 8` of row block `n / 8`, summed. -/
theorem acc_inv (c : Dev nD) : ∀ (n : ℕ) (h : n < cfg0.N) (p : Fin 512) (e : Fin 1024),
    (outsAt0 m c n h).2 (ix2 p e) = acc (tok m c (n / 8) p) (warr m c) e (n % 8)
  | 0, h, p, e => by
    rw [snd_first m c ⟨0, h⟩ rfl (by show ¬(0 : ℕ) % 8 = 7; decide) p e]
    exact (acc_zero _ _ _).symm
  | n + 1, h, p, e => by
    by_cases h0 : (n + 1) % 8 = 0
    · have h1 : ¬(n + 1) % 8 = 7 := by omega
      rw [snd_first m c ⟨n + 1, h⟩ h0 h1 p e]
      show 0 + tile _ _ e ((n + 1) % 8) = _
      rw [h0]
      exact (acc_zero _ _ _).symm
    · have e1 : (n + 1) / 8 = n / 8 := by omega
      have e2 : (n + 1) % 8 = n % 8 + 1 := by omega
      by_cases h1 : (n + 1) % 8 = 7
      · rw [snd_last m c ⟨n + 1, h⟩ h0 h1 p e]
        show (outsAt0 m c n _).2 (ix2 p e) + tile _ _ e ((n + 1) % 8) = _
        rw [acc_inv c n _ p e]
        show acc _ _ e (n % 8) + tile (tok m c ((n + 1) / 8) p) _ e ((n + 1) % 8) = _
        rw [e1, e2, acc_succ]
      · rw [snd_middle m c ⟨n + 1, h⟩ h0 h1 p e]
        show (outsAt0 m c n _).2 (ix2 p e) + tile _ _ e ((n + 1) % 8) = _
        rw [acc_inv c n _ p e]
        show acc _ _ e (n % 8) + tile (tok m c ((n + 1) / 8) p) _ e ((n + 1) % 8) = _
        rw [e1, e2, acc_succ]

/-- THE OUTPUT BLOCK at a row block's last tile: the whole lookup sum plus the bias. -/
theorem out_value (c : Dev nD) (t : Fin cfg0.N) (h1 : t.val % 8 = 7) (p : Fin 512) (e : Fin 1024) :
    (outsAt0 m c t.val t.isLt).1 (ix2 p e) = lookup (tok m c (t.val / 8) p) (warr m c) e + barr m c (ix1 e) := by
  have h0 : ¬t.val % 8 = 0 := by omega
  rw [fst_last m c t h0 h1 p e, acc_inv m c t.val t.isLt p e, h1, Cert.Embed.acc_last]

end Cert.Embed.Acc

end
-- ==== Proof.KernelValue.lean ====
import proofs.«124390_j37117107372549_1_alg».proof.Proof.Acc
import Idealize.ShloMosaic.Lib.StableHlo.Run
import Idealize.ShloMosaic.Lib.Tactic

/-!
# The kernel's result array

The region's output is the `[32768, 1024]` array whose row `n` is the lookup of flattened token `n`: the output block
of row block `r` is written back once, after the point `8·r + 7` of its last column tile, when it holds the whole
lookup sum plus the bias; those 64 blocks tile the array. Around the region the program only re-lays arrays out:
the tokens `[16, 2048]` are flattened row-major before it (token `n` is `X[n / 2048, n % 2048]`), and the result is
cut back into `[16, 2048, 1024]` after it (entry `(b, s, e)` is row `2048·b + s`, column `e`). So the program's result
is `G` of its three arguments.
-/

noncomputable section

namespace Cert.Embed.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Embed Cert.Embed.Blocks Cert.Embed.Acc

variable (m : (ℓ : Loc nD τ sig) → Buf (Elt Ideal) ℓ) (ρ : Dev nD → PrngReg)

/-- Row `n`, column `e` of the flat result: the lookup of flattened token `n` against row `e`, plus the bias. -/
def entry (c : Dev nD) (n : ℕ) (e : Fin 1024) : EReal := lookup (xtok m c n) (warr m c) e + barr m c (ix1 e)

/-- The flat result. -/
def flatG (c : Dev nD) : Vec Ideal S32768x1024 .f32 := fun j => entry m c (j 0).val ⟨(j 1).val, (j 1).isLt⟩

abbrev flat (c : Dev nD) : Buf (Elt Ideal) ((c : Thread nD τ).loc main_v1) := flatG m c

/-- The output block after a row block's last tile is that block of the flat result. -/
theorem out_entry (c : Dev nD) (t : Fin cfg0.N) (h7 : t.val % 8 = 7) (j : S512x1024.Idx) :
    (outsAt0 m c t.val t.isLt).1 j = flatG m c (((cfg0.win 3).blk t).view.emb j) := by
  obtain ⟨p, e, rfl⟩ : ∃ (p : Fin 512) (e : Fin 1024), j = ix2 p e := ⟨j 0, j 1, eq_ix2 j⟩
  rw [out_value m c t h7 p e]
  have ht : t.val < 512 := lt_of_lt_of_eq t.isLt N_eq
  have a0 : ((((cfg0.win 3).blk t).view.emb (ix2 p e)) 0).val = 512 * (t.val / 8) + p.val := by
    show win0_3.index t 0 * 512 + 1 * p.val = _
    rw [(idx_facts t).2.2.2.2.1]; omega
  have a1 : ((((cfg0.win 3).blk t).view.emb (ix2 p e)) 1).val = e.val := by
    show win0_3.index t 1 * 1024 + 1 * e.val = _
    rw [(idx_facts t).2.2.2.2.2.1]; omega
  show entry m c (512 * (t.val / 8) + p.val) e
    = entry m c ((((cfg0.win 3).blk t).view.emb (ix2 p e)) 0).val ⟨((((cfg0.win 3).blk t).view.emb (ix2 p e)) 1).val, _⟩
  rw [a0]
  exact congrArg (entry m c _) (Fin.ext a1.symm)

/-- What a write-back writes is its block of the flat result. -/
theorem flushed_eq (c : Dev nD) (t : Fin cfg0.N) (hf : (cfg0.win 3).flush t = true) :
    (dats m 0 c).flushed 3 t = ((cfg0.win 3).blk t).view.read (Elt Ideal) (flat m c) := by
  have h7 : t.val % 8 = 7 := (flush0_3 t).mp hf
  show (cfg0.win 3).cut (grid0.coords t) ((dats m 0 c).after 3 t) = _
  rw [after0_3]
  funext j
  exact out_entry m c t h7 j

/-- Row `n` lies in the block written back after point `8·(n / 512) + 7`. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0 : ℕ) < 32768 := (i 0).isLt
  have hi1 : (i 1 : ℕ) < 1024 := (i 1).isLt
  have hN : 8 * ((i 0 : ℕ) / 512) + 7 < cfg0.N := by rw [N_eq]; omega
  refine ⟨⟨8 * ((i 0 : ℕ) / 512) + 7, hN⟩, (flush0_3 _).mpr (by show (8 * ((i 0 : ℕ) / 512) + 7) % 8 = 7; omega), ?_⟩
  show i ∈ ((View.whole main_v1).slice (win0_3.rect ⟨8 * ((i 0 : ℕ) / 512) + 7, hN⟩)).set
  rw [View.set_slice_whole, Rect.mem_set_unit]
  intro a
  have e4 := (idx_facts ⟨8 * ((i 0 : ℕ) / 512) + 7, hN⟩).2.2.2.2.1
  have e5 := (idx_facts ⟨8 * ((i 0 : ℕ) / 512) + 7, hN⟩).2.2.2.2.2.1
  match a with
  | ⟨0, _⟩ =>
    show win0_3.index ⟨8 * ((i 0 : ℕ) / 512) + 7, hN⟩ 0 * 512 ≤ (i 0 : ℕ) ∧ (i 0 : ℕ) < win0_3.index ⟨8 * ((i 0 : ℕ) / 512) + 7, hN⟩ 0 * 512 + 512
    rw [e4]; dsimp only; omega
  | ⟨1, _⟩ =>
    show win0_3.index ⟨8 * ((i 0 : ℕ) / 512) + 7, hN⟩ 1 * 1024 ≤ (i 1 : ℕ) ∧ (i 1 : ℕ) < win0_3.index ⟨8 * ((i 0 : ℕ) / 512) + 7, hN⟩ 1 * 1024 + 1024
    rw [e5]; omega

/-- The region's output array ends holding the flat result. -/
theorem final (c : Dev nD) : (dats m 0 c).arrAt 3 cfg0.N = flat m c :=
  (dats m 0 c).arrAt_eq_of_cover 3 (flat m c) (flushed_eq m c) (cover c)

/-! ## The re-layouts around the region -/

/-- The region finds the tokens flattened row-major. -/
theorem xarr_eq (c : Dev nD) :
    xarr m c = shapeCast S32768 ((m ((c : Thread nD τ).loc main_arg0)) : Vec Ideal S16x2048 .i32) shapeCasts_S16x2048_S32768 := by
  show StableHlo.after hostOps0 (fun b => m (c, b)) (Proc.devRef .tc main_v0) = _
  after_results
  rfl

/-- Flattened token `2048·b + s` is `X[b, s]`. -/
theorem xtok_eq (c : Dev nD) (b : Fin 16) (s : Fin 2048) :
    xtok m c (2048 * b.val + s.val) = ((m ((c : Thread nD τ).loc main_arg0)) : Vec Ideal S16x2048 .i32) (ix2 b s) := by
  have hb : 2048 * b.val + s.val < 32768 := by have := b.isLt; have := s.isLt; omega
  unfold xtok
  rw [dif_pos hb, xarr_eq]
  exact shapeCast_apply _ _ _ _ (by
    show (S16x2048.rowMajor (ix2 b s)).val = (S32768.rowMajor (ix1 (⟨2048 * b.val + s.val, hb⟩ : Fin 32768))).val
    rw [Shape.rowMajor_val_two, Shape.rowMajor_val_one]
    show b.val * 2048 + s.val = 2048 * b.val + s.val
    omega)

/-- The flat result cut back into `[16, 2048, 1024]`. -/
def KG (c : Dev nD) : Vec Ideal S16x2048x1024 .f32 :=
  shapeCast S16x2048x1024 (flatG m c) shapeCasts_S32768x1024_S16x2048x1024

theorem KG_apply (c : Dev nD) (b : Fin 16) (s : Fin 2048) (e : Fin 1024) :
    KG m c (ix3 b s e) = entry m c (2048 * b.val + s.val) e := by
  have hb : 2048 * b.val + s.val < 32768 := by have := b.isLt; have := s.isLt; omega
  unfold KG
  refine (shapeCast_apply (flatG m c) _ (ix3 b s e) (ix2 (⟨2048 * b.val + s.val, hb⟩ : Fin 32768) e) ?_).trans rfl
  rw [Shape.rowMajor_val_three, Shape.rowMajor_val_two]
  show (2048 * b.val + s.val) * 1024 + e.val = (b.val * 2048 + s.val) * 1024 + e.val
  omega

/-- It is `G` of the three arguments. -/
theorem KG_eq (c : Dev nD) :
    KG m c = G ((m ((c : Thread nD τ).loc main_arg0)) : Vec Ideal S16x2048 .i32) ((m ((c : Thread nD τ).loc main_arg1)) : Vec Ideal S1024x8192 .f32)
      ((m ((c : Thread nD τ).loc main_arg2)) : Vec Ideal S1024 .f32) := by
  funext i
  obtain ⟨b, s, e, rfl⟩ : ∃ (b : Fin 16) (s : Fin 2048) (e : Fin 1024), i = ix3 b s e := ⟨i 0, i 1, i 2, eq_ix3 i⟩
  rw [KG_apply]
  unfold entry
  rw [xtok_eq, show warr m c = (m ((c : Thread nD τ).loc main_arg1)) from V_main_arg1 m c, show barr m c = (m ((c : Thread nD τ).loc main_arg2)) from V_main_arg2 m c]
  rfl

/-- After the region the program cuts the output array into the result. -/
theorem tail_eq (c : Dev nD) :
    Pipeline.afterTail₀ cfgs (dats m) 0 (V0 m) [hostOps1] c main_v2 = KG m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = flat m c :=
    (Pipeline.withArrays_arr spec0 launch0.win.arr_inj c _ _ 3).trans (final m c)
  rw [hw]
  rfl

/-- THE KERNEL'S RUN: every weakly fair execution terminates with the result at `G` of the arguments, which end unchanged. -/
theorem run : θ_run defs (onTc (τ := τ) (main (F := Ideal))) ⟨m, fun _ => 0, ρ⟩ fun r => ∀ c : Dev nD,
      r.2.mem ((c : Thread nD τ).loc main_v2) = G ((m ((c : Thread nD τ).loc main_arg0)) : Vec Ideal S16x2048 .i32) ((m ((c : Thread nD τ).loc main_arg1)) : Vec Ideal S1024x8192 .f32) ((m ((c : Thread nD τ).loc main_arg2)) : Vec Ideal S1024 .f32)
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2)) :=
  (θ_run defs _ _).mono (fun r h c =>
    ⟨((h c).2 main_v2 (Pipeline.mem_restRefs_of main_v2 (by decide) (by decide))).trans ((tail_eq m c).trans (KG_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Embed.KernelValue

end
-- ==== Proof.RefValue.lean ====
import proofs.«124390_j37117107372549_1_alg».proof.Proof.Gen.ReferenceIdeal.Read
import proofs.«124390_j37117107372549_1_alg».proof.Proof.Spec

/-!
# The reference computes `G`

The reference builds the one-hot tensor `[16, 2048, 8192]` by comparing each token, broadcast along a new last axis,
with the column numbers `0 … 8191`, converts the one-bit result to a float, contracts it with the table along the
8192 columns, and adds the bias broadcast over the first two axes. Entry by entry that is the lookup sum plus the bias.
-/

noncomputable section

namespace Cert.Embed.RefValue

open Idealize.ShloMosaic Idealize.ShloMosaic.TcCoe Idealize.ShloMosaic.ValueIdx Idealize.SL.Sem
open Cert.ReferenceIdeal Cert.ReferenceIdeal.Gen Cert.ReferenceIdeal.Read Cert.Embed
open scoped BigOperators

/-- Where each broadcast and each operand of the contraction reads, in coordinates. -/
theorem tok_idx (b : Fin 16) (s : Fin 2048) (v : Fin 8192) : idx_main_call0_v0 (idx_main_call0_v2 (ix3 b s v)) = ix2 b s :=
  funext fun a => Fin.ext (by match a with | ⟨0, _⟩ => rfl | ⟨1, _⟩ => rfl)
theorem lhs_idx (b : Fin 16) (s : Fin 2048) (e : Fin 1024) (k : Fin 8192) : lidx_main_v1 (ix3 b s e) k = ix3 b s k :=
  funext fun a => Fin.ext (by match a with | ⟨0, _⟩ => rfl | ⟨1, _⟩ => rfl | ⟨2, _⟩ => rfl)
theorem rhs_idx (b : Fin 16) (s : Fin 2048) (e : Fin 1024) (k : Fin 8192) : ridx_main_v1 (ix3 b s e) k = ix2 e k :=
  funext fun a => Fin.ext (by match a with | ⟨0, _⟩ => rfl | ⟨1, _⟩ => rfl)
theorem bias_idx (b : Fin 16) (s : Fin 2048) (e : Fin 1024) : idx_main_v2 (idx_main_v3 (ix3 b s e)) = ix1 e :=
  funext fun a => Fin.ext (by match a with | ⟨0, _⟩ => rfl)

/-- The one-hot tensor at `(b, s, v)` is the one-hot weight of token `X[b, s]` against column word `v`. -/
theorem onehot_apply (x0 : (⟨S16x2048, .i32⟩ : BufTy).Contents (Elt Ideal)) (b : Fin 16) (s : Fin 2048) (v : Fin 8192) :
    val_main_v0 (F := Ideal) x0 (ix3 b s v) = hot (x0 (ix2 b s)) (BitVec.ofNat 32 v.val) := by
  rw [val_main_v0_apply, val_main_call0_v4_apply, uitofp_cmpi_eq, val_main_call0_v2_apply, val_main_call0_v0_apply,
    val_main_call0_v3_apply, val_main_call0_v1_apply, tok_idx]

/-- The reference's result is `G` of its arguments. -/
theorem result_eq (x0 : (⟨S16x2048, .i32⟩ : BufTy).Contents (Elt Ideal)) (x1 : (⟨S1024x8192, .f32⟩ : BufTy).Contents (Elt Ideal))
    (x2 : (⟨S1024, .f32⟩ : BufTy).Contents (Elt Ideal)) :
    val_main_v4 (F := Ideal) x0 x1 x2 = G x0 x1 x2 := by
  funext i
  obtain ⟨b, s, e, rfl⟩ : ∃ (b : Fin 16) (s : Fin 2048) (e : Fin 1024), i = ix3 b s e := ⟨i 0, i 1, i 2, eq_ix3 i⟩
  rw [val_main_v4_apply, val_main_v1_apply, val_main_v3_apply, val_main_v2_apply]
  simp only [lhs_idx, rhs_idx, bias_idx, onehot_apply]
  rfl

end Cert.Embed.RefValue

end
-- ==== Proof.lean ====
/-
  An embedding lookup written as a product with a one-hot row, against the reference's `one_hot(X) · Wᵀ + b`.

  For tokens `X : i32[16, 2048]`, a table `W : f32[1024, 8192]` and a bias `b : f32[1024]`, both programs compute

      out[b, s, e] = (∑ v < 8192, hot X[b, s] v · W[e, v]) + b[e],

  where `hot x v` is `1` when the word `x` is the 32-bit word of `v` and `0` otherwise (a token outside `[0, 8192)`
  matches no column on either side, so both give the bias alone there).

  The kernel flattens the tokens to 32768 rows and walks a `64 × 8` grid: 64 row blocks of 512 tokens, and for each
  the table's 8192 columns in 8 tiles of 1024. At a tile it builds the one-hot block of its 512 tokens against the
  tile's 1024 column numbers, multiplies it with the tile of the table (contracting the columns), and adds the
  product into an accumulator that it zeroes at a row block's first tile; at the last tile it adds the bias row and
  stores the output block. Over the extended reals the two narrowings to a 16-bit float are the identity and a matrix
  product into a zero accumulator is a plain sum, so after tile `k` the accumulator holds the lookup sum over the
  columns of tiles `0 … k` (an induction over the grid points), and after tile 7 over all 8192 columns: a sum over
  `8 · 1024` consecutive indices taken in 8 runs of 1024, which needs only that addition is commutative and
  associative — nothing has to be finite. The 64 output blocks tile the `[32768, 1024]` result, which the program
  then cuts back row-major into `[16, 2048, 1024]`.

  The reference's one-hot tensor, its contraction with the table along the columns and its broadcast bias read, entry
  by entry, as the same expression. The kernel's idealization rewrote nothing, so `preserves` is `True`.
-/
import proofs.«124390_j37117107372549_1_alg».proof.Defs
import proofs.«124390_j37117107372549_1_alg».proof.Proof.Gen.Kernel
import proofs.«124390_j37117107372549_1_alg».proof.Proof.Gen.Kernel.Skeleton
import proofs.«124390_j37117107372549_1_alg».proof.Proof.Gen.Kernel.Launch
import proofs.«124390_j37117107372549_1_alg».proof.Proof.Gen.Kernel.Points
import proofs.«124390_j37117107372549_1_alg».proof.Proof.Gen.Kernel.Frame
import proofs.«124390_j37117107372549_1_alg».proof.Proof.Gen.KernelIdeal
import proofs.«124390_j37117107372549_1_alg».proof.Proof.Gen.KernelIdeal.Skeleton
import proofs.«124390_j37117107372549_1_alg».proof.Proof.Gen.KernelIdeal.Launch
import proofs.«124390_j37117107372549_1_alg».proof.Proof.Gen.KernelIdeal.Points
import proofs.«124390_j37117107372549_1_alg».proof.Proof.Gen.KernelIdeal.Frame
import proofs.«124390_j37117107372549_1_alg».proof.Proof.Gen.ReferenceIdeal
import proofs.«124390_j37117107372549_1_alg».proof.Proof.Gen.ReferenceIdeal.Run
import proofs.«124390_j37117107372549_1_alg».proof.Proof.Gen.ReferenceIdeal.Read
import proofs.«124390_j37117107372549_1_alg».proof.Proof.Gen.Pre_finite_inputs
import proofs.«124390_j37117107372549_1_alg».proof.Proof.KernelValue
import proofs.«124390_j37117107372549_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `G` of arguments that agree. -/
theorem algebraic : Cert.algebraic_KernelIdeal_ReferenceIdeal := by
  intro m ρ m' ρ' _ hagree
  refine ⟨_, Cert.Embed.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Embed.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
